-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x7168 : Shape := ⟨2, ![32, 7168]⟩
abbrev S18432x7168 : Shape := ⟨2, ![18432, 7168]⟩
abbrev S144x56 : Shape := ⟨2, ![144, 56]⟩
abbrev S_ : Shape := ⟨0, ![]⟩

class Facts : Prop where
  bcast_S_S32x7168 : S_.BroadcastsInDim S32x7168 (![] : Fin 0 → Fin S32x7168.rank)
  reducesTo_S32x7168_S_d0_1 : S32x7168.ReducesTo [0, 1] S_
  h_S_ : 0 < S_.numel
  bcast_S_S18432x7168 : S_.BroadcastsInDim S18432x7168 (![] : Fin 0 → Fin S18432x7168.rank)
  reducesTo_S18432x7168_S_d0_1 : S18432x7168.ReducesTo [0, 1] S_
  bcast_S_S144x56 : S_.BroadcastsInDim S144x56 (![] : Fin 0 → Fin S144x56.rank)
  reducesTo_S144x56_S_d0_1 : S144x56.ReducesTo [0, 1] S_

variable [Facts]

def fn {F : FTy → Type} [FloatOps F] (main_arg0 : FVec F S32x7168 .f32) (main_arg1 : FVec F S18432x7168 .f32) (main_arg2 : FVec F S144x56 .f32) : IVec S_ 1 :=
  let main_v0 : FVec F S32x7168 .f32 := Host.absf main_arg0
  let main_cst : FVec F S_ .f32 := constant S_ .f32 0x7F800000#32
  let main_v1 : FVec F S32x7168 .f32 := broadcastInDim S32x7168 ![] bcast_S_S32x7168 main_cst
  let main_v2 : IVec S32x7168 1 := cmpf .olt main_v0 main_v1
  let main_c : IVec S_ 1 := constantI S_ 1 1#1
  let main_v3 : IVec S_ 1 := (fun x v => Host.reduce IntOp.andi x v reducesTo_S32x7168_S_d0_1 h_S_) main_v2 main_c
  let main_v4 : FVec F S18432x7168 .f32 := Host.absf main_arg1
  let main_cst_0 : FVec F S_ .f32 := constant S_ .f32 0x7F800000#32
  let main_v5 : FVec F S18432x7168 .f32 := broadcastInDim S18432x7168 ![] bcast_S_S18432x7168 main_cst_0
  let main_v6 : IVec S18432x7168 1 := cmpf .olt main_v4 main_v5
  let main_c_1 : IVec S_ 1 := constantI S_ 1 1#1
  let main_v7 : IVec S_ 1 := (fun x v => Host.reduce IntOp.andi x v reducesTo_S18432x7168_S_d0_1 h_S_) main_v6 main_c_1
  let main_v8 : IVec S_ 1 := andi main_v3 main_v7
  let main_v9 : FVec F S144x56 .f32 := Host.absf main_arg2
  let main_cst_2 : FVec F S_ .f32 := constant S_ .f32 0x7F800000#32
  let main_v10 : FVec F S144x56 .f32 := broadcastInDim S144x56 ![] bcast_S_S144x56 main_cst_2
  let main_v11 : IVec S144x56 1 := cmpf .olt main_v9 main_v10
  let main_c_3 : IVec S_ 1 := constantI S_ 1 1#1
  let main_v12 : IVec S_ 1 := (fun x v => Host.reduce IntOp.andi x v reducesTo_S144x56_S_d0_1 h_S_) main_v11 main_c_3
  let main_v13 : IVec S_ 1 := andi main_v8 main_v12
  main_v13
-- ==== Kernel.lean ====
abbrev S32x7168 : Shape := ⟨2, ![32, 7168]⟩
abbrev S18432x7168 : Shape := ⟨2, ![18432, 7168]⟩
abbrev S144x56 : Shape := ⟨2, ![144, 56]⟩
abbrev S144x7x8 : Shape := ⟨3, ![144, 7, 8]⟩
abbrev S7x144x8 : Shape := ⟨3, ![7, 144, 8]⟩
abbrev S32x18432 : Shape := ⟨2, ![32, 18432]⟩
abbrev S32x1024 : Shape := ⟨2, ![32, 1024]⟩
abbrev S1024x1024 : Shape := ⟨2, ![1024, 1024]⟩
abbrev S1x8x8 : Shape := ⟨3, ![1, 8, 8]⟩
abbrev S8x8 : Shape := ⟨2, ![8, 8]⟩
abbrev S8x128x8x128 : Shape := ⟨4, ![8, 128, 8, 128]⟩
abbrev S8x1x8x1 : Shape := ⟨4, ![8, 1, 8, 1]⟩

abbrev nBuf : Space → Nat
  | .hbm => 6
  | .vmem => 9
  | .smem => 0
  | _ => 0

abbrev bufTy : (tb : Table) → Fin (tcTables nBuf tb) → BufTy
  | .hbm, ⟨0, _⟩ => ⟨S32x7168, .f32⟩
  | .hbm, ⟨1, _⟩ => ⟨S18432x7168, .f32⟩
  | .hbm, ⟨2, _⟩ => ⟨S144x56, .f32⟩
  | .hbm, ⟨3, _⟩ => ⟨S144x7x8, .f32⟩
  | .hbm, ⟨4, _⟩ => ⟨S7x144x8, .f32⟩
  | .hbm, ⟨5, _⟩ => ⟨S32x18432, .f32⟩
  | .local _ .vmem, ⟨0, _⟩ => ⟨S32x1024, .f32⟩
  | .local _ .vmem, ⟨1, _⟩ => ⟨S32x1024, .f32⟩
  | .local _ .vmem, ⟨2, _⟩ => ⟨S1024x1024, .f32⟩
  | .local _ .vmem, ⟨3, _⟩ => ⟨S1024x1024, .f32⟩
  | .local _ .vmem, ⟨4, _⟩ => ⟨S1x8x8, .f32⟩
  | .local _ .vmem, ⟨5, _⟩ => ⟨S1x8x8, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | _, _ => ⟨S32x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![18, 7], ![false, false]⟩

def k0_cond2 (i : grid0.Coords) : BitVec 1 :=
  let arg1 : BitVec 32 := BitVec.ofNat 32 (i 1).val
  let c6_i32 : BitVec 32 := 6#32
  let v20 : BitVec 1 := Scalar.cmpi .eq arg1 c6_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S144x56_S144x7x8 : S144x56.ShapeCasts S144x7x8
  transposes_S144x7x8_S7x144x8_1_0_2 : S144x7x8.Transposes [1, 0, 2] S7x144x8
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x1024_S1024x1024_0_0 : ∀ a, (![0, 0] : Fin 2 → Nat) a + S1024x1024.size a ≤ S1024x1024.size a
  h_S1024x1024 : 0 < S1024x1024.numel
  inb_S1x8x8_S1x8x8_0_0_0 : ∀ a, (![0, 0, 0] : Fin 3 → Nat) a + S1x8x8.size a ≤ S1x8x8.size a
  h_S1x8x8 : 0 < S1x8x8.numel
  shapeCasts_S1x8x8_S8x8 : S1x8x8.ShapeCasts S8x8
  shapeCasts_S1024x1024_S8x128x8x128 : S1024x1024.ShapeCasts S8x128x8x128
  shapeCasts_S8x8_S8x1x8x1 : S8x8.ShapeCasts S8x1x8x1
  broadcasts_S8x1x8x1_S8x128x8x128 : S8x1x8x1.Broadcasts S8x128x8x128
  shapeCasts_S8x128x8x128_S1024x1024 : S8x128x8x128.ShapeCasts S1024x1024
  bitsLt_bf16_f32 : FTy.bits .bf16 < FTy.bits .f32
  dot_S32x1024_S1024x1024_S32x1024_1_1_0_0_n_n_wf : DotDims.WF S32x1024 S1024x1024 S32x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x7168.size a
  hwx0_0 : ∀ i : grid0.Coords, EltTy.bits .f32 = 32 ∨ (Rect.block (s := S32x7168) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S18432x7168.size a
  hwx0_1 : ∀ i : grid0.Coords, EltTy.bits .f32 = 32 ∨ (Rect.block (s := S18432x7168) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x8.size a ≤ S7x144x8.size a
  hwx0_2 : ∀ i : grid0.Coords, EltTy.bits .f32 = 32 ∨ (Rect.block (s := S7x144x8) S1x8x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x18432.size a
  hwx0_3 : ∀ i : grid0.Coords, EltTy.bits .f32 = 32 ∨ (Rect.block (s := S32x18432) S32x1024.size (cc0_transform_3 i) (hinb0_3 i)).WholeWords (EltTy.packing .f32)

variable [Facts₀]

def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf

abbrev win0_0 : Pipeline.Window sig grid0 :=
  Pipeline.Window.ofSpec (Memref.whole main_arg0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x7168 : Shape := ⟨2, ![32, 7168]⟩
abbrev S18432x7168 : Shape := ⟨2, ![18432, 7168]⟩
abbrev S144x56 : Shape := ⟨2, ![144, 56]⟩
abbrev S144x128x56x128 : Shape := ⟨4, ![144, 128, 56, 128]⟩
abbrev S144x1x56x1 : Shape := ⟨4, ![144, 1, 56, 1]⟩
abbrev S32x18432 : Shape := ⟨2, ![32, 18432]⟩

abbrev nBuf : Space → Nat
  | .hbm => 9
  | .vmem => 0
  | .smem => 0
  | _ => 0

abbrev bufTy : (tb : Table) → Fin (tcTables nBuf tb) → BufTy
  | .hbm, ⟨0, _⟩ => ⟨S32x7168, .f32⟩
  | .hbm, ⟨1, _⟩ => ⟨S18432x7168, .f32⟩
  | .hbm, ⟨2, _⟩ => ⟨S144x56, .f32⟩
  | .hbm, ⟨3, _⟩ => ⟨S144x128x56x128, .f32⟩
  | .hbm, ⟨4, _⟩ => ⟨S144x1x56x1, .f32⟩
  | .hbm, ⟨5, _⟩ => ⟨S144x128x56x128, .f32⟩
  | .hbm, ⟨6, _⟩ => ⟨S144x128x56x128, .f32⟩
  | .hbm, ⟨7, _⟩ => ⟨S18432x7168, .f32⟩
  | .hbm, ⟨8, _⟩ => ⟨S32x18432, .f32⟩
  | _, _ => ⟨S32x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S18432x7168_S144x128x56x128 : S18432x7168.ShapeCasts S144x128x56x128
  bcast_S144x56_S144x1x56x1_0_2 : S144x56.BroadcastsInDim S144x1x56x1 (![0, 2] : Fin 2 → Fin S144x1x56x1.rank)
  bcast_S144x1x56x1_S144x128x56x128_0_1_2_3 : S144x1x56x1.BroadcastsInDim S144x128x56x128 (![0, 1, 2, 3] : Fin 4 → Fin S144x128x56x128.rank)
  shapeCasts_S144x128x56x128_S18432x7168 : S144x128x56x128.ShapeCasts S18432x7168
  dot_S32x7168_S18432x7168_S32x18432_1_1_0_0_n_n_wf : DotDims.WF S32x7168 S18432x7168 S32x18432 [1] [1] [0] [0] [] []

variable [Facts₀]

def dot_S32x7168_S18432x7168_S32x18432_1_1_0_0_n_n : DotDims S32x7168 S18432x7168 S32x18432 where
  lhsContracting := [1]
  rhsContracting := [1]
  lhsNonContracting := [0]
  rhsNonContracting := [0]
  lhsBatch := []
  rhsBatch := []
  wf := dot_S32x7168_S18432x7168_S32x18432_1_1_0_0_n_n_wf

class Facts : Prop extends Facts₀ where

variable [Facts]
-- ==== Proof.Spec.lean ====
/-
  The block-scaled linear map, with no program in sight.

  out[p, o] = ∑ k < 7168, x[p, k] · (w[o, k] · s[o / 128, k / 128])

  where `s` holds one scale per 128 × 128 tile of `w`.  Arrays are read at natural-number coordinates
  (zero outside their extents), so that a sum over the 7168 columns can be regrouped into seven runs of
  1024 columns without carrying bounds: on the extended reals addition is commutative and associative,
  which is all the regrouping needs.
-/
import Idealize.ShloMosaic.PureOps.Ideal
import Idealize.ShloMosaic.Lib.ValueIdx
import Mathlib.Algebra.BigOperators.Fin
import Mathlib.Logic.Equiv.Fin.Basic

noncomputable section

namespace BlockScaledLinear

open Idealize.ShloMosaic Idealize.ShloMosaic.ValueIdx

/-- A rank-2 array of extended reals read at natural coordinates: zero outside its extents. -/
def at2 {n0 n1 : Nat} (a : (⟨2, ![n0, n1]⟩ : Shape).Idx → EReal) (i j : Nat) : EReal :=
  if h : i < n0 ∧ j < n1 then a (ix2 ⟨i, h.1⟩ ⟨j, h.2⟩) else 0

/-- Inside the extents `at2` is the array itself. -/
theorem at2_idx {n0 n1 : Nat} (a : (⟨2, ![n0, n1]⟩ : Shape).Idx → EReal) (y : (⟨2, ![n0, n1]⟩ : Shape).Idx) :
    a y = at2 a (y 0).val (y 1).val := by
  unfold at2
  rw [dif_pos ⟨(y 0).isLt, (y 1).isLt⟩]
  exact congrArg a (funext fun d => match d with | ⟨0, _⟩ => rfl | ⟨1, _⟩ => rfl)

/-- The same, with the two coordinates named. -/
theorem at2_eq {n0 n1 : Nat} (a : (⟨2, ![n0, n1]⟩ : Shape).Idx → EReal) (y : (⟨2, ![n0, n1]⟩ : Shape).Idx)
    (i j : Nat) (h0 : (y 0).val = i) (h1 : (y 1).val = j) : a y = at2 a i j := by
  subst h0; subst h1; exact at2_idx a y

abbrev XS : Shape := ⟨2, ![32, 7168]⟩
abbrev WS : Shape := ⟨2, ![18432, 7168]⟩
abbrev SS : Shape := ⟨2, ![144, 56]⟩
abbrev OS : Shape := ⟨2, ![32, 18432]⟩

variable (x : XS.Idx → EReal) (w : WS.Idx → EReal) (s : SS.Idx → EReal)

/-- One product of the contraction: the activation times the weight scaled by its tile's scale. -/
def term (p o k : Nat) : EReal := at2 x p k * (at2 w o k * at2 s (o / 128) (k / 128))

/-- The result, index by index. -/
def linear : OS.Idx → EReal := fun i => ∑ k : Fin 7168, term x w s (i 0).val (i 1).val k.val

/-- What grid point `n` (output-column block `n / 7`, contraction block `n % 7`) adds to entry `(p, q)` of its
    32 × 1024 output block: the products over its 1024 columns. -/
def addend (n : Nat) (p q : Nat) : EReal :=
  ∑ k : Fin 1024, term x w s p (1024 * (n / 7) + q) (1024 * (n % 7) + k.val)

/-- A sum over 7168 consecutive naturals is the sum over seven runs of 1024. -/
theorem sum_blocks {M : Type*} [AddCommMonoid M] (f : Nat → M) :
    ∑ k : Fin 7168, f k.val = ∑ j ∈ Finset.range 7, ∑ q : Fin 1024, f (1024 * j + q.val) := by
  rw [Finset.sum_range]
  rw [← Fintype.sum_prod_type' (f := fun (j : Fin 7) (q : Fin 1024) => f (1024 * j.val + q.val))]
  show ∑ k : Fin (7 * 1024), f k.val = _
  rw [← Equiv.sum_comp (finProdFinEquiv (m := 7) (n := 1024))]
  refine Finset.sum_congr rfl fun y _ => ?_
  show f (y.2.val + 1024 * y.1.val) = f (1024 * y.1.val + y.2.val)
  rw [Nat.add_comm]

/-- The seven contraction blocks of output-column block `ob` add up to the whole contraction. -/
theorem sum_addends (ob p q : Nat) :
    ∑ j ∈ Finset.range 7, addend x w s (7 * ob + j) p q = ∑ k : Fin 7168, term x w s p (1024 * ob + q) k.val := by
  rw [sum_blocks (fun k => term x w s p (1024 * ob + q) k)]
  refine Finset.sum_congr rfl fun j hj => ?_
  have hj7 : j < 7 := Finset.mem_range.mp hj
  unfold addend
  rw [show (7 * ob + j) / 7 = ob by omega, show (7 * ob + j) % 7 = j by omega]

end BlockScaledLinear

end
-- ==== Proof.RefIsLinear.lean ====
/-
  The reference computes the block-scaled linear map.

  Its weight is reshaped to tiles [144, 128, 56, 128], multiplied by the scale broadcast over each tile, and
  reshaped back: entry (o, k) of the product is w[o, k] · s[o / 128, k / 128], because the row-major position
  o · 7168 + k splits as ((o / 128 · 128 + o % 128) · 56 + k / 128) · 128 + k % 128.  The contraction with x over
  the 7168 columns is then `linear` term by term.
-/
import proofs.«118915_j26989574488647_1_alg».proof.Proof.Gen.ReferenceIdeal.Read
import proofs.«118915_j26989574488647_1_alg».proof.Proof.Spec

noncomputable section

namespace Cert.ReferenceIdeal.RefValue

open Cert.ReferenceIdeal Cert.ReferenceIdeal.Read BlockScaledLinear
open Idealize.ShloMosaic Idealize.ShloMosaic.ValueIdx

/-- The dequantized weight at (o, k): the weight there times the scale of its 128 × 128 tile. -/
theorem scaled_weight (x1 : (⟨S18432x7168, .f32⟩ : BufTy).Contents (Elt Ideal)) (x2 : (⟨S144x56, .f32⟩ : BufTy).Contents (Elt Ideal))
    (j : S18432x7168.Idx) :
    val_main_v4 (F := Ideal) x1 x2 j
      = at2 x1 (j 0).val (j 1).val * at2 x2 ((j 0).val / 128) ((j 1).val / 128) := by
  have h0 : (j 0).val < 18432 := (j 0).isLt
  have h1 : (j 1).val < 7168 := (j 1).isLt
  rw [val_main_v4_apply, val_main_v3_apply, val_main_v0_apply, val_main_v2_apply, val_main_v1_apply]
  show x1 _ * x2 _ = _
  congr 1
  · refine at2_eq x1 _ _ _ ?_ ?_
    · show ((((((j 0).val * 7168 + (j 1).val) / 917504) * 128 + ((j 0).val * 7168 + (j 1).val) / 7168 % 128) * 56
          + ((j 0).val * 7168 + (j 1).val) / 128 % 56) * 128 + ((j 0).val * 7168 + (j 1).val) % 128) / 7168 = (j 0).val
      omega
    · show ((((((j 0).val * 7168 + (j 1).val) / 917504) * 128 + ((j 0).val * 7168 + (j 1).val) / 7168 % 128) * 56
          + ((j 0).val * 7168 + (j 1).val) / 128 % 56) * 128 + ((j 0).val * 7168 + (j 1).val) % 128) % 7168 = (j 1).val
      omega
  · refine at2_eq x2 _ _ _ ?_ ?_
    · show ((j 0).val * 7168 + (j 1).val) / 917504 = (j 0).val / 128
      omega
    · show ((j 0).val * 7168 + (j 1).val) / 128 % 56 = (j 1).val / 128
      omega

/-- The reference's result is `linear` of its three arguments. -/
theorem reference_is_linear (x0 : (⟨S32x7168, .f32⟩ : BufTy).Contents (Elt Ideal)) (x1 : (⟨S18432x7168, .f32⟩ : BufTy).Contents (Elt Ideal))
    (x2 : (⟨S144x56, .f32⟩ : BufTy).Contents (Elt Ideal)) :
    val_main_v5 (F := Ideal) x0 x1 x2 = linear x0 x1 x2 := by
  funext i
  rw [val_main_v5_apply]
  unfold linear term
  refine Finset.sum_congr rfl fun k _ => ?_
  rw [scaled_weight]
  exact congrArg (· * _) (at2_eq x0 _ _ _ rfl rfl)

end Cert.ReferenceIdeal.RefValue

end
-- ==== Proof.KernelPieces.lean ====
/-
  What one run of the kernel body leaves behind, case by case, as values of the blocks it loaded.

  The body keeps a 32 × 1024 accumulator.  At the first contraction block it stores zeros into it; at every block
  it then stores  acc + x_blk · (w_blk ∘ s_blk)ᵀ  (`k0_pay2` of the weight block, the scale block, the activation
  block and the accumulator it read); at the last contraction block it copies the accumulator to the output block.
  So the accumulator ends at `k0_pay2 … zeros` in the first case and at `k0_pay2 … acc` in the other two, and in
  the last case the output block holds the same value.
-/
import proofs.«118915_j26989574488647_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A middle contraction block: the accumulator `xs0` becomes `k0_pay2` of the three blocks and `xs0`. -/
theorem scratch_B (c : Dev nD) (i : grid0.Coords) (arg2 : Memref sig .tc .vmem S32x1024 .f32) (harg2 : arg2.IsWhole) (arg3 : Memref sig .tc .vmem S1024x1024 .f32) (harg3 : arg3.IsWhole) (arg4 : Memref sig .tc .vmem S1x8x8 .f32) (harg4 : arg4.IsWhole) (arg5 : Memref sig .tc .vmem S32x1024 .f32) (harg5 : arg5.IsWhole) (arg6 : Memref sig .tc .vmem S32x1024 .f32) (harg6 : arg6.IsWhole) (hc0 : ¬cond0_0 i) (hc1 : ¬cond0_1 i)
    (x0 : Vec F S32x1024 .f32) (x1 : Vec F S1024x1024 .f32) (x2 : Vec F S1x8x8 .f32) (xs0 : Vec F S32x1024 .f32) :
    sout0_B_0 c i arg2 harg2 arg3 harg3 arg4 harg4 arg5 harg5 arg6 harg6 hc0 hc1 x0 x1 x2 xs0 = k0_pay2 x1 x2 x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S32x1024) hz, View.ld_unit_zero (S := S1024x1024) hz, View.ld_unit_zero (S := S1x8x8) hz3]

/-- The last contraction block: the accumulator is updated the same way … -/
theorem scratch_C (c : Dev nD) (i : grid0.Coords) (arg2 : Memref sig .tc .vmem S32x1024 .f32) (harg2 : arg2.IsWhole) (arg3 : Memref sig .tc .vmem S1024x1024 .f32) (harg3 : arg3.IsWhole) (arg4 : Memref sig .tc .vmem S1x8x8 .f32) (harg4 : arg4.IsWhole) (arg5 : Memref sig .tc .vmem S32x1024 .f32) (harg5 : arg5.IsWhole) (arg6 : Memref sig .tc .vmem S32x1024 .f32) (harg6 : arg6.IsWhole) (hc0 : ¬cond0_0 i) (hc1 : cond0_1 i)
    (x0 : Vec F S32x1024 .f32) (x1 : Vec F S1024x1024 .f32) (x2 : Vec F S1x8x8 .f32) (xs0 : Vec F S32x1024 .f32) :
    sout0_C_0 c i arg2 harg2 arg3 harg3 arg4 harg4 arg5 harg5 arg6 harg6 hc0 hc1 x0 x1 x2 xs0 = k0_pay2 x1 x2 x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S32x1024) hz, View.ld_unit_zero (S := S1024x1024) hz, View.ld_unit_zero (S := S1x8x8) hz3]

/-- … and the output block receives the updated accumulator, read back after its store. -/
theorem output_C (c : Dev nD) (i : grid0.Coords) (arg2 : Memref sig .tc .vmem S32x1024 .f32) (harg2 : arg2.IsWhole) (arg3 : Memref sig .tc .vmem S1024x1024 .f32) (harg3 : arg3.IsWhole) (arg4 : Memref sig .tc .vmem S1x8x8 .f32) (harg4 : arg4.IsWhole) (arg5 : Memref sig .tc .vmem S32x1024 .f32) (harg5 : arg5.IsWhole) (arg6 : Memref sig .tc .vmem S32x1024 .f32) (harg6 : arg6.IsWhole) (hc0 : ¬cond0_0 i) (hc1 : cond0_1 i)
    (x0 : Vec F S32x1024 .f32) (x1 : Vec F S1024x1024 .f32) (x2 : Vec F S1x8x8 .f32) (xs0 : Vec F S32x1024 .f32) :
    out0_C_3 c i arg2 harg2 arg3 harg3 arg4 harg4 arg5 harg5 arg6 harg6 hc0 hc1 x0 x1 x2 xs0 = k0_pay2 x1 x2 x0 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.readCov_unit_zero (S := S32x1024) _ hz,
    View.ld_unit_zero (S := S32x1024) hz, View.ld_unit_zero (S := S1024x1024) hz, View.ld_unit_zero (S := S1x8x8) hz3]

/-- The first contraction block: zeros are stored first, so the accumulator ends at `k0_pay2` of the three blocks
    and the zero block, whatever it held before. -/
theorem scratch_A (c : Dev nD) (i : grid0.Coords) (arg2 : Memref sig .tc .vmem S32x1024 .f32) (harg2 : arg2.IsWhole) (arg3 : Memref sig .tc .vmem S1024x1024 .f32) (harg3 : arg3.IsWhole) (arg4 : Memref sig .tc .vmem S1x8x8 .f32) (harg4 : arg4.IsWhole) (arg5 : Memref sig .tc .vmem S32x1024 .f32) (harg5 : arg5.IsWhole) (arg6 : Memref sig .tc .vmem S32x1024 .f32) (harg6 : arg6.IsWhole) (hc0 : cond0_0 i) (hc1 : ¬cond0_1 i)
    (x0 : Vec F S32x1024 .f32) (x1 : Vec F S1024x1024 .f32) (x2 : Vec F S1x8x8 .f32) :
    sout0_A_0 c i arg2 harg2 arg3 harg3 arg4 harg4 arg5 harg5 arg6 harg6 hc0 hc1 x0 x1 x2 = k0_pay2 x1 x2 x0 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S32x1024) hz]
  simp only [View.readAt_eq_ld, harg2.read_unread, harg3.read_unread, harg4.read_unread,
    View.readCov_unit_zero (S := S32x1024) _ hz,
    View.ld_unit_zero (S := S32x1024) hz, View.ld_unit_zero (S := S1024x1024) hz, View.ld_unit_zero (S := S1x8x8) hz3]

end Cert.KernelIdeal.Pieces

end
-- ==== Proof.KernelPayload.lean ====
/-
  The body's arithmetic, read at one entry of the 32 × 1024 accumulator block, on the extended reals.

  The 1024 × 1024 weight block is viewed as 8 × 128 × 8 × 128 tiles and multiplied by the 8 × 8 scale block
  broadcast over each tile, so entry (q, k) of the dequantized block is  w(q, k) · s(q / 128, k / 128):  the
  row-major position q · 1024 + k is ((q / 128 · 128 + q % 128) · 8 + k / 128) · 128 + k % 128.  The two changes
  of float format are the identity here, and the product with the activation block contracts the second axis of
  both operands into a zero accumulator, so it is a plain sum over the block's 1024 columns:

    payload(p, q) = acc(p, q) + ∑ k < 1024, x(p, k) · (w(q, k) · s(q / 128, k / 128)).
-/
import proofs.«118915_j26989574488647_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

/-! ## The product's operand indices -/

theorem lhs_mm_0 (i : S32x1024.Idx) (q : dot_S32x1024_S1024x1024_S32x1024_1_1_0_0_n_n.contr.Idx) :
    (dot_S32x1024_S1024x1024_S32x1024_1_1_0_0_n_n.lhsIdx i q 0).val = (i 0).val := by
  unfold DotDims.lhsIdx
  rw [dif_neg (show ¬(0 : Fin S32x1024.rank) ∈ dot_S32x1024_S1024x1024_S32x1024_1_1_0_0_n_n.lhsBatch by decide), dif_pos (show (0 : Fin S32x1024.rank) ∈ dot_S32x1024_S1024x1024_S32x1024_1_1_0_0_n_n.lhsNonContracting by decide)]
  rfl
theorem lhs_mm_1 (i : S32x1024.Idx) (q : dot_S32x1024_S1024x1024_S32x1024_1_1_0_0_n_n.contr.Idx) :
    (dot_S32x1024_S1024x1024_S32x1024_1_1_0_0_n_n.lhsIdx i q 1).val = (q ⟨0, by decide⟩).val :=
  dot_S32x1024_S1024x1024_S32x1024_1_1_0_0_n_n.lhsIdx_val_of_single rfl i q
theorem rhs_mm_0 (i : S32x1024.Idx) (q : dot_S32x1024_S1024x1024_S32x1024_1_1_0_0_n_n.contr.Idx) :
    (dot_S32x1024_S1024x1024_S32x1024_1_1_0_0_n_n.rhsIdx i q 0).val = (i 1).val := by
  unfold DotDims.rhsIdx
  rw [dif_neg (show ¬(0 : Fin S1024x1024.rank) ∈ dot_S32x1024_S1024x1024_S32x1024_1_1_0_0_n_n.rhsBatch by decide), dif_pos (show (0 : Fin S1024x1024.rank) ∈ dot_S32x1024_S1024x1024_S32x1024_1_1_0_0_n_n.rhsNonContracting by decide)]
  rfl
theorem rhs_mm_1 (i : S32x1024.Idx) (q : dot_S32x1024_S1024x1024_S32x1024_1_1_0_0_n_n.contr.Idx) :
    (dot_S32x1024_S1024x1024_S32x1024_1_1_0_0_n_n.rhsIdx i q 1).val = (q ⟨0, by decide⟩).val :=
  dot_S32x1024_S1024x1024_S32x1024_1_1_0_0_n_n.rhsIdx_val_of_single rfl i q

/-- The product into a zero accumulator at (p, q): the sum over the shared second axis. -/
theorem matmul_at {φ₁ φ₂ : FTy} (l : FVec Ideal S32x1024 φ₁) (r : FVec Ideal S1024x1024 φ₂) (p : Fin 32) (q : Fin 1024) :
    matmul dot_S32x1024_S1024x1024_S32x1024_1_1_0_0_n_n none l r (constant S32x1024 .f32 0x00000000#32) (ix2 p q)
      = ∑ k : Fin 1024, l (ix2 p k) * r (ix2 q k) := by
  simp only [matmul]
  rw [Ideal.matmul_constant_zero_apply, ← Equiv.sum_comp (contrEquiv1 dot_S32x1024_S1024x1024_S32x1024_1_1_0_0_n_n 1024 rfl rfl).symm]
  refine Finset.sum_congr rfl fun k _ => ?_
  have hk := contrEquiv1_symm_val dot_S32x1024_S1024x1024_S32x1024_1_1_0_0_n_n 1024 rfl rfl k
  have el : dot_S32x1024_S1024x1024_S32x1024_1_1_0_0_n_n.lhsIdx (ix2 p q) ((contrEquiv1 dot_S32x1024_S1024x1024_S32x1024_1_1_0_0_n_n 1024 rfl rfl).symm k) = ix2 p k := funext fun a => Fin.ext (by
    match a with
    | ⟨0, _⟩ => exact lhs_mm_0 _ _
    | ⟨1, _⟩ => exact (lhs_mm_1 _ _).trans hk)
  have er : dot_S32x1024_S1024x1024_S32x1024_1_1_0_0_n_n.rhsIdx (ix2 p q) ((contrEquiv1 dot_S32x1024_S1024x1024_S32x1024_1_1_0_0_n_n 1024 rfl rfl).symm k) = ix2 q k := funext fun a => Fin.ext (by
    match a with
    | ⟨0, _⟩ => exact rhs_mm_0 _ _
    | ⟨1, _⟩ => exact (rhs_mm_1 _ _).trans hk)
  rw [el, er]

/-! ## The dequantized weight block -/

/-- Entry (q, k) of the weight block scaled tile by tile. -/
theorem dequant_at (v3 : FVec Ideal S1024x1024 .f32) (v4 : FVec Ideal S1x8x8 .f32) (q k : Fin 1024) :
    shapeCast S1024x1024 (mulf (F := Ideal) (φ := .f32) (shapeCast S8x128x8x128 v3 Gen.shapeCasts_S1024x1024_S8x128x8x128)
        (broadcastTo S8x128x8x128 (shapeCast S8x1x8x1 (shapeCast S8x8 v4 Gen.shapeCasts_S1x8x8_S8x8) Gen.shapeCasts_S8x8_S8x1x8x1)
          Gen.broadcasts_S8x1x8x1_S8x128x8x128)) Gen.shapeCasts_S8x128x8x128_S1024x1024 (ix2 q k)
      = v3 (ix2 q k) * v4 (ix3 (0 : Fin 1) (⟨q.val / 128, by omega⟩ : Fin 8) (⟨k.val / 128, by omega⟩ : Fin 8)) := by
  have hq : q.val < 1024 := q.isLt
  have hk : k.val < 1024 := k.isLt
  refine (shapeCast_apply _ Gen.shapeCasts_S8x128x8x128_S1024x1024 (ix2 q k)
    (ix4 (⟨q.val / 128, by omega⟩ : Fin 8) (⟨q.val % 128, by omega⟩ : Fin 128) (⟨k.val / 128, by omega⟩ : Fin 8) (⟨k.val % 128, by omega⟩ : Fin 128))
    (by rewrite [Shape.rowMajor_val_four, Shape.rowMajor_val_two]
        show ((q.val / 128 * 128 + q.val % 128) * 8 + k.val / 128) * 128 + k.val % 128 = q.val * 1024 + k.val
        omega)).trans ?_
  refine (mulf_apply _ _ _).trans ?_
  congr 1
  · exact shapeCast_apply v3 Gen.shapeCasts_S1024x1024_S8x128x8x128 _ (ix2 q k)
      (by rewrite [Shape.rowMajor_val_two, Shape.rowMajor_val_four]
          show q.val * 1024 + k.val = ((q.val / 128 * 128 + q.val % 128) * 8 + k.val / 128) * 128 + k.val % 128
          omega)
  · refine (broadcastTo_apply _ Gen.broadcasts_S8x1x8x1_S8x128x8x128 _
      (ix4 (⟨q.val / 128, by omega⟩ : Fin 8) (0 : Fin 1) (⟨k.val / 128, by omega⟩ : Fin 8) (0 : Fin 1)) (fun a => match a with
        | ⟨0, _⟩ => by show q.val / 128 = if (8 : Nat) = 1 then 0 else q.val / 128; rw [if_neg (by decide)]
        | ⟨1, _⟩ => by show 0 = if (1 : Nat) = 1 then 0 else q.val % 128; rw [if_pos rfl]
        | ⟨2, _⟩ => by show k.val / 128 = if (8 : Nat) = 1 then 0 else k.val / 128; rw [if_neg (by decide)]
        | ⟨3, _⟩ => by show 0 = if (1 : Nat) = 1 then 0 else k.val % 128; rw [if_pos rfl])).trans ?_
    refine (shapeCast_apply _ Gen.shapeCasts_S8x8_S8x1x8x1 _
      (ix2 (⟨q.val / 128, by omega⟩ : Fin 8) (⟨k.val / 128, by omega⟩ : Fin 8))
      (by rewrite [Shape.rowMajor_val_two, Shape.rowMajor_val_four]
          show q.val / 128 * 8 + k.val / 128 = ((q.val / 128 * 1 + 0) * 8 + k.val / 128) * 1 + 0
          omega)).trans ?_
    exact shapeCast_apply v4 Gen.shapeCasts_S1x8x8_S8x8 _ (ix3 (0 : Fin 1) (⟨q.val / 128, by omega⟩ : Fin 8) (⟨k.val / 128, by omega⟩ : Fin 8))
      (by rewrite [Shape.rowMajor_val_three, Shape.rowMajor_val_two]
          show (0 * 8 + q.val / 128) * 8 + k.val / 128 = q.val / 128 * 8 + k.val / 128
          omega)

/-! ## The two payloads -/

/-- The reset stores zeros. -/
theorem zeros_at (j : S32x1024.Idx) : k0_pay1 (F := Ideal) j = 0 := by
  unfold k0_pay1
  refine (congrFun (shapeCast_self _ _) j).trans ?_
  exact Ideal.ofBits_zero_f32

/-- The update: the accumulator plus the block's contribution. -/
theorem update_at (v3 : Vec Ideal S1024x1024 .f32) (v4 : Vec Ideal S1x8x8 .f32) (v11 v14 : Vec Ideal S32x1024 .f32)
    (p : Fin 32) (q : Fin 1024) :
    k0_pay2 (F := Ideal) v3 v4 v11 v14 (ix2 p q)
      = v14 (ix2 p q) + ∑ k : Fin 1024, v11 (ix2 p k)
          * (v3 (ix2 q k) * v4 (ix3 (0 : Fin 1) (⟨q.val / 128, by have := q.isLt; omega⟩ : Fin 8) (⟨k.val / 128, by have := k.isLt; omega⟩ : Fin 8))) := by
  unfold k0_pay2
  refine (congrFun (shapeCast_self _ _) (ix2 p q)).trans ?_
  refine (addf_apply _ _ _).trans ?_
  refine congrArg (v14 (ix2 p q) + ·) ?_
  refine (matmul_at _ _ p q).trans ?_
  refine Finset.sum_congr rfl fun k _ => ?_
  refine congrArg (v11 (ix2 p k) * ·) ?_
  exact dequant_at v3 v4 q k

end Cert.KernelIdeal.Payload

end
-- ==== Proof.KernelBlocks.lean ====
/-
  The blocks the pipeline hands the body at grid point t, read at coordinates.

  The grid is 18 × 7, row-major: point t works on output-column block t / 7 and contraction block t % 7.
    activation block (p, k)  =  x[p, 1024 · (t % 7) + k]
    weight block (q, k)      =  w[1024 · (t / 7) + q, 1024 · (t % 7) + k]
    scale block (0, r, d)    =  s[8 · (t / 7) + r, 8 · (t % 7) + d]
  The last holds because the program first rearranges the 144 × 56 scales as [7, 144, 8] — reshape to
  [144, 7, 8], swap the first two axes — so that entry (a, b, d) of the rearranged array is s[b, 8 · a + d].
-/
import proofs.«118915_j26989574488647_1_alg».proof.Proof.Gen.KernelIdeal.Frame
import proofs.«118915_j26989574488647_1_alg».proof.Proof.Spec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen BlockScaledLinear
open Idealize.ShloMosaic Idealize.ShloMosaic.ValueIdx Idealize.ShloMosaic.TcCoe Idealize.SL.Sem
open Idealize.ShloMosaic.StableHlo

variable (m : (ℓ : Loc nD τ sig) → Buf (Elt Ideal) ℓ)

/-- The three argument arrays as launched, as arrays of extended reals. -/
abbrev X (c : Dev nD) : XS.Idx → EReal := m ((c : Thread nD τ).loc main_arg0)
abbrev W (c : Dev nD) : WS.Idx → EReal := m ((c : Thread nD τ).loc main_arg1)
abbrev Sc (c : Dev nD) : SS.Idx → EReal := m ((c : Thread nD τ).loc main_arg2)

/-- The input blocks at point `t`, at their literal types. -/
abbrev xblk (c : Dev nD) (t : Fin cfg0.N) : FVec Ideal S32x1024 .f32 := iblk m c 0 t
abbrev wblk (c : Dev nD) (t : Fin cfg0.N) : FVec Ideal S1024x1024 .f32 := iblk m c 1 t
abbrev sblk (c : Dev nD) (t : Fin cfg0.N) : FVec Ideal S1x8x8 .f32 := iblk m c 2 t

theorem at2_congr {n0 n1 : Nat} (a : (⟨2, ![n0, n1]⟩ : Shape).Idx → EReal) {i i' j j' : Nat} (hi : i = i') (hj : j = j') :
    at2 a i j = at2 a i' j' := by subst hi; subst hj; rfl

/-- The block indices of the four windows at point `t`, decided over the grid's 126 points. -/
theorem index_facts : ∀ t : Fin cfg0.N,
    win0_0.index t (0 : Fin 2) = 0 ∧ win0_0.index t (1 : Fin 2) = t.val % 7
    ∧ win0_1.index t (0 : Fin 2) = t.val / 7 ∧ win0_1.index t (1 : Fin 2) = t.val % 7
    ∧ win0_2.index t (0 : Fin 3) = t.val % 7 ∧ win0_2.index t (1 : Fin 3) = t.val / 7 ∧ win0_2.index t (2 : Fin 3) = 0
    ∧ win0_3.index t (0 : Fin 2) = 0 ∧ win0_3.index t (1 : Fin 2) = t.val / 7 :=
  (by decide +kernel : ∀ t : Fin grid0.N, _)

/-- The activation block. -/
theorem xblk_at (c : Dev nD) (t : Fin cfg0.N) (p : Fin 32) (k : Fin 1024) :
    xblk m c t (ix2 p k) = at2 (X m c) p.val (1024 * (t.val % 7) + k.val) := by
  obtain ⟨e00, e01, -⟩ := index_facts t
  unfold xblk iblk
  rw [View.read_apply]
  show V m c main_arg0 _ = _
  rw [V_main_arg0]
  refine at2_eq (X m c) _ _ _ ?_ ?_
  · show win0_0.index t (0 : Fin 2) * 32 + 1 * p.val = p.val
    rw [e00]; omega
  · show win0_0.index t (1 : Fin 2) * 1024 + 1 * k.val = 1024 * (t.val % 7) + k.val
    rw [e01]; omega

/-- The weight block. -/
theorem wblk_at (c : Dev nD) (t : Fin cfg0.N) (q k : Fin 1024) :
    wblk m c t (ix2 q k) = at2 (W m c) (1024 * (t.val / 7) + q.val) (1024 * (t.val % 7) + k.val) := by
  obtain ⟨-, -, e10, e11, -⟩ := index_facts t
  unfold wblk iblk
  rw [View.read_apply]
  show V m c main_arg1 _ = _
  rw [V_main_arg1]
  refine at2_eq (W m c) _ _ _ ?_ ?_
  · show win0_1.index t (0 : Fin 2) * 1024 + 1 * q.val = 1024 * (t.val / 7) + q.val
    rw [e10]; omega
  · show win0_1.index t (1 : Fin 2) * 1024 + 1 * k.val = 1024 * (t.val % 7) + k.val
    rw [e11]; omega

/-- The scales as the region finds them: reshaped and with the first two axes swapped. -/
theorem scale_arr (c : Dev nD) :
    (V m c main_v1 : S7x144x8.Idx → EReal)
      = transpose S7x144x8 [1, 0, 2] (shapeCast S144x7x8 (Sc m c) Gen.shapeCasts_S144x56_S144x7x8) Gen.transposes_S144x7x8_S7x144x8_1_0_2 := by
  dsimp only [Gen.V, Gen.hostOps0]
  after_results
  rfl

/-- Entry (a, b, d) of the rearranged scales is s[b, 8 · a + d]. -/
theorem scale_arr_at (c : Dev nD) (y : S7x144x8.Idx) :
    (V m c main_v1 : S7x144x8.Idx → EReal) y = at2 (Sc m c) (y 1).val (8 * (y 0).val + (y 2).val) := by
  have h0 : (y 0).val < 7 := (y 0).isLt
  have h1 : (y 1).val < 144 := (y 1).isLt
  have h2 : (y 2).val < 8 := (y 2).isLt
  rw [scale_arr]
  refine (transpose_apply [1, 0, 2] _ Gen.transposes_S144x7x8_S7x144x8_1_0_2 y
    (ix3 (⟨(y 1).val, h1⟩ : Fin 144) (⟨(y 0).val, h0⟩ : Fin 7) (⟨(y 2).val, h2⟩ : Fin 8))
    (fun b => match b with | ⟨0, _⟩ => rfl | ⟨1, _⟩ => rfl | ⟨2, _⟩ => rfl)).trans ?_
  refine (shapeCast_apply _ Gen.shapeCasts_S144x56_S144x7x8 _
    (ix2 (⟨(y 1).val, h1⟩ : Fin 144) (⟨8 * (y 0).val + (y 2).val, by omega⟩ : Fin 56))
    (by rewrite [Shape.rowMajor_val_two, Shape.rowMajor_val_three]
        show (y 1).val * 56 + (8 * (y 0).val + (y 2).val) = ((y 1).val * 7 + (y 0).val) * 8 + (y 2).val
        omega)).trans ?_
  exact at2_eq _ _ _ _ rfl rfl

/-- The scale block. -/
theorem sblk_at (c : Dev nD) (t : Fin cfg0.N) (r d : Fin 8) :
    sblk m c t (ix3 (0 : Fin 1) r d) = at2 (Sc m c) (8 * (t.val / 7) + r.val) (8 * (t.val % 7) + d.val) := by
  obtain ⟨-, -, -, -, e20, e21, e22, -⟩ := index_facts t
  unfold sblk iblk
  rw [View.read_apply]
  show V m c main_v1 _ = _
  rw [scale_arr_at]
  refine at2_congr (Sc m c) ?_ ?_
  · show win0_2.index t (1 : Fin 3) * 8 + 1 * r.val = 8 * (t.val / 7) + r.val
    rw [e21]; omega
  · show 8 * (win0_2.index t (0 : Fin 3) * 1 + 1 * 0) + (win0_2.index t (2 : Fin 3) * 8 + 1 * d.val) = 8 * (t.val % 7) + d.val
    rw [e20, e22]; omega

end Cert.KernelIdeal.Blocks

end
-- ==== Proof.KernelFold.lean ====
/-
  The accumulator over a run of seven grid points.

  Points 7·b … 7·b + 6 share output-column block b.  At the first the accumulator is reset and receives that
  point's contribution; each later point adds its own.  Writing contrib n (p, q) for the sum point n adds to
  entry (p, q) — its 1024 products — the accumulator after point t holds

    ∑ s ≤ t % 7, contrib (7 · (t / 7) + s),

  and at the last point of the run (t % 7 = 6) the output block receives the same value.
-/
import proofs.«118915_j26989574488647_1_alg».proof.Proof.Gen.KernelIdeal.Value
import proofs.«118915_j26989574488647_1_alg».proof.Proof.KernelPieces
import proofs.«118915_j26989574488647_1_alg».proof.Proof.KernelPayload
import proofs.«118915_j26989574488647_1_alg».proof.Proof.KernelBlocks

noncomputable section

namespace Cert.KernelIdeal.Fold

open Cert.KernelIdeal Cert.KernelIdeal.Gen BlockScaledLinear
open Cert.KernelIdeal.Blocks Cert.KernelIdeal.Pieces Cert.KernelIdeal.Payload
open Idealize.ShloMosaic Idealize.ShloMosaic.ValueIdx Idealize.ShloMosaic.TcCoe Idealize.SL.Sem

variable (m : (ℓ : Loc nD τ sig) → Buf (Elt Ideal) ℓ)

/-- What grid point `n` adds to entry `i` of its accumulator block. -/
def contrib (c : Dev nD) (n : Nat) (i : S32x1024.Idx) : EReal :=
  addend (X m c) (W m c) (Sc m c) n (i 0).val (i 1).val

/-- The update at point `t` over an accumulator `acc`: `acc` plus the point's contribution. -/
theorem update_blocks (c : Dev nD) (t : Fin cfg0.N) (acc : FVec Ideal S32x1024 .f32) (i : S32x1024.Idx) :
    k0_pay2 (F := Ideal) (wblk m c t) (sblk m c t) (xblk m c t) acc i = acc i + contrib m c t.val i := by
  obtain ⟨p, q, rfl⟩ : ∃ (p : Fin 32) (q : Fin 1024), i = ix2 p q := ⟨i 0, i 1, eq_ix2 i⟩
  refine (update_at (wblk m c t) (sblk m c t) (xblk m c t) acc p q).trans ?_
  refine congrArg (acc (ix2 p q) + ·) ?_
  show _ = ∑ k : Fin 1024, term (X m c) (W m c) (Sc m c) p.val (1024 * (t.val / 7) + q.val) (1024 * (t.val % 7) + k.val)
  refine Finset.sum_congr rfl fun k _ => ?_
  rw [xblk_at, wblk_at, sblk_at]
  unfold term
  have hq : q.val < 1024 := q.isLt
  have hk : k.val < 1024 := k.isLt
  exact congrArg (at2 (X m c) p.val (1024 * (t.val % 7) + k.val) * ·)
    (congrArg (at2 (W m c) (1024 * (t.val / 7) + q.val) (1024 * (t.val % 7) + k.val) * ·)
      (at2_congr (Sc m c) (by show 8 * (t.val / 7) + q.val / 128 = (1024 * (t.val / 7) + q.val) / 128; omega)
        (by show 8 * (t.val % 7) + k.val / 128 = (1024 * (t.val % 7) + k.val) / 128; omega)))

/-- The accumulator after point `t`: the contributions of its run's points up to `t`. -/
theorem scratch_after (c : Dev nD) (t : Fin cfg0.N) (i : S32x1024.Idx) :
    (outsAt0 m c t.val t.isLt).2 i = ∑ s ∈ Finset.range (t.val % 7 + 1), contrib m c (7 * (t.val / 7) + s) i := by
  have hN : cfg0.N = 126 := N_0
  have ht : t.val < 126 := lt_of_lt_of_eq t.isLt hN
  rw [Value.soutsAt0_0_eq]
  refine (Pipeline.accAt_add_apply (N := cfg0.N)
    (fun n h => Value.scAt0_0 m c n h (VS0_0.read (Elt Ideal) VS0_0.junk)) (Value.scAt0_0 m c)
    (fun _ => (0 : EReal)) (contrib m c) (7 * (t.val / 7)) 6 ?_ ?_ (t.val % 7) (by omega) _ i).trans (zero_add _)
  · -- the run's first point resets: zeros plus its contribution
    intro h i
    have h0 : 7 * (t.val / 7) % 7 = 0 := Nat.mul_mod_right 7 _
    have h1 : ¬7 * (t.val / 7) % 7 = 6 := by omega
    show Value.scAt0_0 m c (7 * (t.val / 7)) h _ i = 0 + contrib m c (7 * (t.val / 7)) i
    unfold Value.scAt0_0
    rw [dif_pos h0, dif_neg h1, scratch_A]
    refine (update_blocks m c ⟨7 * (t.val / 7), h⟩ _ i).trans ?_
    rw [zeros_at]
  · -- every later point of the run adds its contribution
    intro n h acc i hlo hhi
    have h0 : ¬n % 7 = 0 := by omega
    show Value.scAt0_0 m c n h acc i = acc i + contrib m c n i
    unfold Value.scAt0_0
    rw [dif_neg h0]
    by_cases h1 : n % 7 = 6
    · rw [dif_pos h1, scratch_C]
      exact update_blocks m c ⟨n, h⟩ acc i
    · rw [dif_neg h1, scratch_B]
      exact update_blocks m c ⟨n, h⟩ acc i

/-- At the last point of a run the output block holds what the accumulator holds. -/
theorem output_after (c : Dev nD) (t : Fin cfg0.N) (h1 : t.val % 7 = 6) :
    (outsAt0 m c t.val t.isLt).1 = (outsAt0 m c t.val t.isLt).2 := by
  have h0 : ¬t.val % 7 = 0 := by omega
  rw [outsAt0_C m c t h0 h1]
  dsimp only
  rw [output_C, scratch_C]

end Cert.KernelIdeal.Fold

end
-- ==== Proof.KernelArray.lean ====
/-
  From output blocks to the output array.

  The output is written back only at the last point of each run of seven (t % 7 = 6), and what is written is the
  block of columns 1024 · (t / 7) … 1024 · (t / 7) + 1023.  The seven contributions of the run add up to the whole
  contraction over 7168 columns, so the block written is the corresponding block of `linear`; the eighteen
  blocks tile the 32 × 18432 array (column j lies in the block of run j / 1024), so the array ends at `linear`.
-/
import proofs.«118915_j26989574488647_1_alg».proof.Proof.KernelFold

noncomputable section

namespace Cert.KernelIdeal.Result

open Cert.KernelIdeal Cert.KernelIdeal.Gen BlockScaledLinear
open Cert.KernelIdeal.Blocks Cert.KernelIdeal.Fold
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- What a flushing point writes back is its block of `linear` of the three arguments. -/
theorem flushed_eq (c : Dev nD) (t : Fin cfg0.N) (hf : (cfg0.win 3).flush t = true) :
    (dats m 0 c).flushed 3 t = ((cfg0.win 3).blk t).view.read (Elt Ideal) (linear (X m c) (W m c) (Sc m c)) := by
  have h1 : t.val % 7 = 6 := (flush0_3 t).mp hf
  obtain ⟨-, -, -, -, -, -, -, e30, e31⟩ := index_facts t
  rw [Value.flushed3, output_after m c t h1]
  funext j
  show (outsAt0 m c t.val t.isLt).2 j = linear (X m c) (W m c) (Sc m c) (((cfg0.win 3).blk t).view.emb j)
  refine (scratch_after m c t j).trans ?_
  rw [h1]
  show ∑ s ∈ Finset.range 7, addend (X m c) (W m c) (Sc m c) (7 * (t.val / 7) + s) (j 0).val (j 1).val = _
  rw [sum_addends]
  unfold linear
  have ha : ((((cfg0.win 3).blk t).view.emb j) 0).val = (j 0).val := by
    show win0_3.index t (0 : Fin 2) * 32 + 1 * (j 0).val = (j 0).val
    rw [e30]; omega
  have hb : ((((cfg0.win 3).blk t).view.emb j) 1).val = 1024 * (t.val / 7) + (j 1).val := by
    show win0_3.index t (1 : Fin 2) * 1024 + 1 * (j 1).val = 1024 * (t.val / 7) + (j 1).val
    rw [e31]; omega
  rw [ha, hb]

/-- An index of the output array lies in point `t`'s block iff each coordinate lies in the block's range. -/
theorem mem_blk (t : Fin cfg0.N) (i : S32x18432.Idx) :
    i ∈ ((cfg0.win 3).blk t).view.set ↔ ∀ a : Fin 2, win0_3.index t a * S32x1024.size a ≤ (i a).val ∧ (i a).val < win0_3.index t a * S32x1024.size a + S32x1024.size a := by
  show i ∈ ((View.whole main_v2).slice (win0_3.rect t)).set ↔ _
  rw [View.set_slice_whole, Rect.mem_set_unit]
  exact Iff.rfl

/-- Every index of the output array lies in the block some flushing point writes: column j in that of run j / 1024. -/
theorem cover (i : S32x18432.Idx) : ∃ t : Fin cfg0.N, (cfg0.win 3).flush t = true ∧ i ∈ ((cfg0.win 3).blk t).view.set := by
  have hi0 : (i 0).val < 32 := (i 0).isLt
  have hi1 : (i 1).val < 18432 := (i 1).isLt
  have hN : cfg0.N = 126 := N_0
  have hlt : 7 * ((i 1).val / 1024) + 6 < cfg0.N := by rw [hN]; omega
  obtain ⟨-, -, -, -, -, -, -, e30, e31⟩ := index_facts ⟨7 * ((i 1).val / 1024) + 6, hlt⟩
  have e31' : win0_3.index ⟨7 * ((i 1).val / 1024) + 6, hlt⟩ (1 : Fin 2) = (7 * ((i 1).val / 1024) + 6) / 7 := e31
  refine ⟨⟨7 * ((i 1).val / 1024) + 6, hlt⟩, (flush0_3 _).mpr (by show (7 * ((i 1).val / 1024) + 6) % 7 = 6; omega), ?_⟩
  rw [mem_blk]
  intro a
  match a with
  | ⟨0, _⟩ =>
    show win0_3.index ⟨7 * ((i 1).val / 1024) + 6, hlt⟩ (0 : Fin 2) * 32 ≤ (i 0).val
      ∧ (i 0).val < win0_3.index ⟨7 * ((i 1).val / 1024) + 6, hlt⟩ (0 : Fin 2) * 32 + 32
    rw [e30]; omega
  | ⟨1, _⟩ =>
    show win0_3.index ⟨7 * ((i 1).val / 1024) + 6, hlt⟩ (1 : Fin 2) * 1024 ≤ (i 1).val
      ∧ (i 1).val < win0_3.index ⟨7 * ((i 1).val / 1024) + 6, hlt⟩ (1 : Fin 2) * 1024 + 1024
    rw [e31']; omega

/-- The output array after the run. -/
theorem final (c : Dev nD) : (dats m 0 c).arrAt 3 cfg0.N = linear (X m c) (W m c) (Sc m c) :=
  (dats m 0 c).arrAt_eq_of_cover 3 (linear (X m c) (W m c) (Sc m c)) (fun t hf => flushed_eq m c t hf) cover

/-- The idealized kernel's run: the result array ends at `linear` of the three arguments, which are unchanged. -/
theorem run : θ_run defs (onTc (τ := τ) (main (F := Ideal))) ⟨m, fun _ => 0, ρ⟩ fun r => ∀ c : Dev nD,
      r.2.mem ((c : Thread nD τ).loc main_v2) = linear (X m c) (W m c) (Sc m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.lean ====
/-
  A linear layer with a block-quantized weight: out = x · (w ∘ s)ᵀ, where x is 32 × 7168, w is 18432 × 7168 and
  s holds one scale for each 128 × 128 tile of w, so that

    out[p, o] = ∑ k < 7168, x[p, k] · (w[o, k] · s[o / 128, k / 128]).

  The reference forms the scaled weight as a whole array and contracts it with x in one product.  The kernel
  walks an 18 × 7 grid: for each block of 1024 output columns it runs over the seven blocks of 1024 contraction
  columns, scales the 1024 × 1024 weight block by its 8 × 8 scales, multiplies it with the activation block and
  adds the result into a 32 × 1024 accumulator that it clears at the first of the seven and copies out at the
  last.  On the extended reals the changes of float format are the identity and addition is commutative and
  associative, so the seven partial sums over 1024 columns are the one sum over 7168: both programs compute
  `BlockScaledLinear.linear` of their arguments.  No step uses finiteness of the inputs.

  Spec.lean states the map and the regrouping of the sum; RefIsLinear.lean reads the reference; KernelPieces,
  KernelPayload, KernelBlocks, KernelFold and KernelArray read the kernel: what one run of the body leaves, its
  arithmetic at an entry, the blocks it is handed, the accumulator over a run of seven points, and the output
  array from its blocks.  Here the five claims are put together.
-/
import proofs.«118915_j26989574488647_1_alg».proof.Defs
import proofs.«118915_j26989574488647_1_alg».proof.Proof.Gen.Kernel
import proofs.«118915_j26989574488647_1_alg».proof.Proof.Gen.Kernel.Skeleton
import proofs.«118915_j26989574488647_1_alg».proof.Proof.Gen.Kernel.Launch
import proofs.«118915_j26989574488647_1_alg».proof.Proof.Gen.Kernel.Points
import proofs.«118915_j26989574488647_1_alg».proof.Proof.Gen.Kernel.Frame
import proofs.«118915_j26989574488647_1_alg».proof.Proof.Gen.KernelIdeal
import proofs.«118915_j26989574488647_1_alg».proof.Proof.Gen.KernelIdeal.Skeleton
import proofs.«118915_j26989574488647_1_alg».proof.Proof.Gen.KernelIdeal.Launch
import proofs.«118915_j26989574488647_1_alg».proof.Proof.Gen.KernelIdeal.Points
import proofs.«118915_j26989574488647_1_alg».proof.Proof.Gen.KernelIdeal.Frame
import proofs.«118915_j26989574488647_1_alg».proof.Proof.Gen.ReferenceIdeal
import proofs.«118915_j26989574488647_1_alg».proof.Proof.Gen.Pre_finite_inputs
import proofs.«118915_j26989574488647_1_alg».proof.Proof.Gen.KernelIdeal.Value
import proofs.«118915_j26989574488647_1_alg».proof.Proof.Gen.ReferenceIdeal.Run
import proofs.«118915_j26989574488647_1_alg».proof.Proof.Gen.ReferenceIdeal.Read
import proofs.«118915_j26989574488647_1_alg».proof.Proof.RefIsLinear
import proofs.«118915_j26989574488647_1_alg».proof.Proof.KernelArray
import Idealize.ShloMosaic.Adequacy
import Idealize.ShloMosaic.Init

noncomputable section

namespace Cert.Proof

open Idealize.ShloMosaic Idealize.ShloMosaic.TcCoe Idealize.SL.Sem BlockScaledLinear

/-- The kernel as printed runs and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of six array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten in reading the kernel on the extended reals. -/
theorem preserves : Cert.preserves_Kernel_KernelIdeal := trivial

/-- From memories that agree on x, w and s, both programs end with the result array at `linear x w s`. -/
theorem algebraic : Cert.algebraic_KernelIdeal_ReferenceIdeal := by
  intro m ρ m' ρ' _ hagree
  refine ⟨fun c => linear (Cert.KernelIdeal.Blocks.X m c) (Cert.KernelIdeal.Blocks.W m c) (Cert.KernelIdeal.Blocks.Sc m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_is_linear,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
